-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S16384x128 .f32) (main_arg1 : FVec F S16384x16384 .f32) (main_arg2 : FVec F S16384x16384 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S16384x128 : Shape := ⟨2, ![16384, 128]⟩
abbrev S16384x16384 : Shape := ⟨2, ![16384, 16384]⟩
abbrev S16384x1 : Shape := ⟨2, ![16384, 1]⟩
abbrev S512x2048 : Shape := ⟨2, ![512, 2048]⟩
abbrev S2048x512 : Shape := ⟨2, ![2048, 512]⟩
abbrev S512x128 : Shape := ⟨2, ![512, 128]⟩
abbrev S512x1 : Shape := ⟨2, ![512, 1]⟩
abbrev S2048x128 : Shape := ⟨2, ![2048, 128]⟩
abbrev S512 : Shape := ⟨1, ![512]⟩
abbrev S16384x257 : Shape := ⟨2, ![16384, 257]⟩

abbrev nBuf : Space → Nat
  | .hbm => 7
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384x16384, .f32⟩
  | .hbm, ⟨3, _⟩ => ⟨S16384x128, .bf16⟩
  | .hbm, ⟨4, _⟩ => ⟨S16384x128, .f32⟩
  | .hbm, ⟨5, _⟩ => ⟨S16384x1, .f32⟩
  | .hbm, ⟨6, _⟩ => ⟨S16384x257, .f32⟩
  | .local _ .vmem, ⟨0, _⟩ => ⟨S16384x128, .bf16⟩
  | .local _ .vmem, ⟨1, _⟩ => ⟨S512x2048, .f32⟩
  | .local _ .vmem, ⟨2, _⟩ => ⟨S512x2048, .f32⟩
  | .local _ .vmem, ⟨3, _⟩ => ⟨S2048x512, .f32⟩
  | .local _ .vmem, ⟨4, _⟩ => ⟨S2048x512, .f32⟩
  | .local _ .vmem, ⟨5, _⟩ => ⟨S512x128, .f32⟩
  | .local _ .vmem, ⟨6, _⟩ => ⟨S512x128, .f32⟩
  | .local _ .vmem, ⟨7, _⟩ => ⟨S512x1, .f32⟩
  | .local _ .vmem, ⟨8, _⟩ => ⟨S512x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S16384x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S512x1_S512x1_0_0 : ∀ a, (![0, 0] : Fin 2 → Nat) a + S512x1.size a ≤ S512x1.size a
  h_S512x1 : 0 < S512x1.numel
  inb_S512x2048_S512x2048_0_0 : ∀ a, (![0, 0] : Fin 2 → Nat) a + S512x2048.size a ≤ S512x2048.size a
  h_S512x2048 : 0 < S512x2048.numel
  h_S2048x128 : 0 < S2048x128.numel
  shapeCasts_S2048x128_S2048x128 : S2048x128.ShapeCasts S2048x128
  shapeCasts_S512x128_S512x128 : S512x128.ShapeCasts S512x128
  inb_S2048x512_S2048x512_0_0 : ∀ a, (![0, 0] : Fin 2 → Nat) a + S2048x512.size a ≤ S2048x512.size a
  h_S2048x512 : 0 < S2048x512.numel
  transposes_S2048x512_p1_0_S512x2048 : S2048x512.Transposes [1, 0] S512x2048
  shapeCasts_S512x1_S512x1 : S512x1.ShapeCasts S512x1
  reduces_S512x2048_S512 : S512x2048.Reduces [1] S512
  shapeCasts_S512_S512x1 : S512.ShapeCasts S512x1
  concatenates_S16384x128_S16384x128_S16384x1_S16384x257_d1 : Shape.Concatenates [S16384x128, S16384x128, S16384x1] S16384x257 1
  dot_S512x2048_S2048x128_S512x128_1_0_0_1_n_n_wf : DotDims.WF S512x2048 S2048x128 S512x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S16384x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S16384x128.size a
  hwx0_0 : ∀ i : grid0.Coords, EltTy.bits .bf16 = 32 ∨ (Rect.block (s := S16384x128) S16384x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x16384.size a
  hwx0_1 : ∀ i : grid0.Coords, EltTy.bits .f32 = 32 ∨ (Rect.block (s := S16384x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x16384.size a
  hwx0_2 : ∀ i : grid0.Coords, EltTy.bits .f32 = 32 ∨ (Rect.block (s := S16384x16384) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x128.size a
  hwx0_3 : ∀ i : grid0.Coords, EltTy.bits .f32 = 32 ∨ (Rect.block (s := S16384x128) S512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S16384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S16384x257 : Shape := ⟨2, ![16384, 257]⟩

abbrev nBuf : Space → Nat
  | .hbm => 10
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16384x16384, .f32⟩
  | .hbm, ⟨3, _⟩ => ⟨S16384x128, .f32⟩
  | .hbm, ⟨4, _⟩ => ⟨S16384x16384, .f32⟩
  | .hbm, ⟨5, _⟩ => ⟨S16384x16384, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x257, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S16384x16384_S16384x16384_1_0 : S16384x16384.Transposes [1, 0] S16384x16384
  reducesTo_S16384x16384_S16384_d1 : S16384x16384.ReducesTo [1] S16384
  h_S_ : 0 < S_.numel
  bcast_S16384_S16384x1_0 : S16384.BroadcastsInDim S16384x1 (![0] : Fin 1 → Fin S16384x1.rank)
  concatenates_S16384x128_S16384x128_S16384x1_S16384x257_d1 : Shape.Concatenates [S16384x128, S16384x128, S16384x1] S16384x257 1
  dot_S16384x16384_S16384x128_S16384x128_1_0_0_1_n_n_wf : DotDims.WF S16384x16384 S16384x128 S16384x128 [1] [0] [0] [1] [] []

variable [Facts₀]

def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.K.Around.lean ====
/-
  @main of the kernel's program around its one region, and what the region's windows hold.

  @main is three items: the conversion of the node features to bf16 (one host line, writing `main_v0`), the region
  (a 32 x 8 grid; windows: 0 = the bf16 node features, whole; 1 = the adjacency block (i, j) of 512 x 2048;
  2 = the edge-feature block (j, i) of 2048 x 512; 3 = the 512 x 128 block i of the first result; 4 = the 512 x 1 block i
  of the second result), and the concatenation of the node features with the two results along axis 1 (one host line,
  writing `main_v2`). Here: the buffers' contents when the region is entered (the valuation after the first line);
  that @main is "first line; region; last line"; that the last line touches only unscoped buffers, allocates nothing and
  writes no window's array; that the three argument arrays are untouched by the first line; each window's block at a
  grid point, and that an input window's staging buffer holds its block at every point; and how the frame claim's post
  follows from a run that ends with the windows' arrays at the proof data's contents and every other buffer as the
  last line leaves it. Everything is stated for any float instance.
-/
import proofs.«167608_j52012053954612_1_alg».proof.Proof.Gen.Kernel.Launch
import proofs.«167608_j52012053954612_1_alg».proof.Proof.Gen.Kernel.Skeleton
import proofs.«167608_j52012053954612_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Mp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffer contents when the region is entered: the launch contents after the bf16 conversion. -/
abbrev entryVal (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entryVal m c (Proc.devRef .tc b)

theorem head_allocates_nothing : (hostOps0 : List (HloOp τ sig (Elt F))).Forall fun op => op.fresh = ∅ := by
  simp only [List.Forall]; repeat' constructor
theorem tail_allocates_nothing : (hostOps1 : List (HloOp τ sig (Elt F))).Forall fun op => op.fresh = ∅ := by
  simp only [List.Forall]; repeat' constructor

/-- @main is the conversion, the region, the concatenation: it reduces to the region continued by the concatenation,
    entered at `entry`. -/
theorem main_split (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact head_allocates_nothing) main_chain

/-- The concatenation touches unscoped TensorCore buffers only: the windows' arrays and the buffers that bypass the region. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_allocates_nothing) op hop
/-- It writes `main_v2` only, which is no window's array. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

/-- The conversion writes `main_v0` only: a buffer other than `main_v0` is entered as launched. -/
theorem entry_of_ne (c : Dev nD) (b : Ref sig .tc) (hb : b ≠ main_v0) : entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne hb))

theorem entry_nodes (c : Dev nD) : entry m c main_arg0 = m ((c : Thread nD τ).loc main_arg0) := entry_of_ne m c _ (by decide)
theorem entry_edges (c : Dev nD) : entry m c main_arg1 = m ((c : Thread nD τ).loc main_arg1) := entry_of_ne m c _ (by decide)
theorem entry_adj (c : Dev nD) : entry m c main_arg2 = m ((c : Thread nD τ).loc main_arg2) := entry_of_ne m c _ (by decide)

/-- The concatenation does not write `main_arg0`, and no window stages it: it ends as launched. -/
theorem exit_nodes (dats : (p : Fin 1) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nary_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_nodes m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not, for any proof data
    whose array is the entry contents and whose body leaves the block in place: the window is uncut and never idle, and
    where it is not fetched its block index has not moved. One statement per input window. -/
theorem staged_nodes {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_adj {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_edges {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- The frame claim's post from a run that ends with each window's array at the proof data's final contents and every other
    unscoped buffer as the concatenation leaves it: `main_arg0` bypasses the region and the concatenation does not write
    it; `main_arg1` and `main_arg2` are the arrays of the input windows 2 and 1, which end at their entry contents. -/
theorem args_kept_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_nodes m dats c),
     ((h c).1 2).trans (((dats 0 c).arrAt_in 2 rfl _).trans ((hA c 2).trans (entry_edges m c))),
     ((h c).1 1).trans (((dats 0 c).arrAt_in 1 rfl _).trans ((hA c 1).trans (entry_adj m c)))⟩) h

/-! ## The body's branch -/

/-- The condition of the body's one `scf.if`: the second grid coordinate is zero. -/
abbrev firstCol (i : grid0.Coords) : Prop := (Scalar.cmpi .ne (Scalar.extui (Scalar.cmpi .eq (BitVec.ofNat 32 (i 1).val) 0#32)) 0#32) = 1#1
/-- It holds at the points that are multiples of 8 (the grid is 32 x 8, the second coordinate the fast one). -/
theorem firstCol_iff : ∀ t : Fin cfg0.N, firstCol (grid0.coords t) ↔ t.val % 8 = 0 :=
  (by decide +kernel : ∀ t : Fin grid0.N, firstCol (grid0.coords t) ↔ t.val % 8 = 0)

/-- Both result windows are live at every point. -/
theorem live_acc : ∀ t : Fin cfg0.N, cfg0.idle 3 (grid0.coords t) = false := by decide +kernel
theorem live_sum : ∀ t : Fin cfg0.N, cfg0.idle 4 (grid0.coords t) = false := by decide +kernel

/-! ## The staging memrefs at a point -/

abbrev mNodes (t : Fin cfg0.N) : Memref sig .tc .vmem S16384x128 .bf16 := win0_0.stage (cfg0.slots t 0)
abbrev hNodes (t : Fin cfg0.N) : (mNodes t).IsWhole := hstage0_0 ((cfg0.slots t 0).cast nbuf0_0)
abbrev mAdj (t : Fin cfg0.N) : Memref sig .tc .vmem S512x2048 .f32 := win0_1.stage (cfg0.slots t 1)
abbrev hAdj (t : Fin cfg0.N) : (mAdj t).IsWhole := hstage0_1 ((cfg0.slots t 1).cast nbuf0_1)
abbrev mEdges (t : Fin cfg0.N) : Memref sig .tc .vmem S2048x512 .f32 := win0_2.stage (cfg0.slots t 2)
abbrev hEdges (t : Fin cfg0.N) : (mEdges t).IsWhole := hstage0_2 ((cfg0.slots t 2).cast nbuf0_2)
abbrev mAcc (t : Fin cfg0.N) : Memref sig .tc .vmem S512x128 .f32 := win0_3.stage (cfg0.slots t 3)
abbrev hAcc (t : Fin cfg0.N) : (mAcc t).IsWhole := hstage0_3 ((cfg0.slots t 3).cast nbuf0_3)
abbrev mSum (t : Fin cfg0.N) : Memref sig .tc .vmem S512x1 .f32 := win0_4.stage (cfg0.slots t 4)
abbrev hSum (t : Fin cfg0.N) : (mSum t).IsWhole := hstage0_4 ((cfg0.slots t 4).cast nbuf0_4)

end Cert.Kernel.Mp

end
-- ==== Proof.K.Step.lean ====
/-
  One grid point of the kernel body, as a triple over its own memref parameters.

  At a point (i, j) the body adds to the 512 x 128 accumulator the product of the adjacency block with rows
  2048 j .. 2048 j + 2047 of the bf16 node features, and to the 512 x 1 accumulator the row sums of the adjacency block
  times the transposed edge-feature block; when j = 0 it first stores zeros into both accumulators. So what it leaves is
  `accStep` / `sumStep` of what the accumulators held: of the zeros when j = 0 (whatever the buffers held), of their
  contents otherwise. Each store covers its whole buffer, so the buffer reads back as the last payload stored; a load
  after the zeroing store reads the zeros.
-/
import proofs.«167608_j52012053954612_1_alg».proof.Proof.K.Around
import Idealize.ShloMosaic.Lib.Pipeline.Value

set_option maxRecDepth 16384

noncomputable section

namespace Cert.Kernel.Mp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero. -/
theorem off0 : (![0, 0] : Fin 2 → ℕ) = fun _ => 0 := funext fun a => by fin_cases a <;> rfl

/-- A buffer whose LAST store went through the whole-buffer rectangle reads back as that store's payload. -/
theorem read_last_whole {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- Rows 2048 j .. 2048 j + 2047 of the (whole, resident) bf16 node features: what the body loads at point (i, j). -/
def nodeRows (i : grid0.Coords) (x0 : Vec F S16384x128 .bf16) : Vec F S2048x128 .bf16 :=
  View.ld x0 (Rect.unit (s := S16384x128) (k0_off1 i) S2048x128.size (k0_off1_inb i))

/-- The 512 x 128 accumulator after the point: what it held plus the adjacency block times the node rows. -/
def accStep (i : grid0.Coords) (x0 : Vec F S16384x128 .bf16) (x1 : Vec F S512x2048 .f32) (a : Vec F S512x128 .f32) : Vec F S512x128 .f32 :=
  k0_pay3 x1 (nodeRows i x0) a
/-- The 512 x 1 accumulator after the point: what it held plus the row sums of adjacency times transposed edge block. -/
def sumStep (x1 : Vec F S512x2048 .f32) (x2 : Vec F S2048x512 .f32) (s : Vec F S512x1 .f32) : Vec F S512x1 .f32 :=
  k0_pay4 x1 x2 s

set_option maxHeartbeats 1000000 in
/-- The body at a point with j = 0: the accumulators, at anything, end at one step over the zeros. -/
theorem run_reset (c : Dev nD) (i : grid0.Coords)
    (arg2 : Memref sig .tc .vmem S16384x128 .bf16) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S512x128 .f32) (harg5 : arg5.IsWhole)
    (arg6 : Memref sig .tc .vmem S512x1 .f32) (harg6 : arg6.IsWhole) (hc : firstCol i)
    (x0 : Vec F S16384x128 .bf16) (x1 : Vec F S512x2048 .f32) (x2 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 k0_pay1) ∗ owns (c : Thread nD τ) arg6 fullShare (sumStep x1 x2 k0_pay2)) -∗ K ⟨⟩))
      ⊢ wp frame (wpE (defs₀ (F := F)) Variants.none c none) E (cc0__mp_kernel i arg2 harg2 arg3 harg3 arg4 harg4 arg5 harg5 arg6 harg6) K := by
  simp only [cc0__mp_kernel_eq_skeleton]; unfold cc0__mp_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_last_whole _ _ off0]
    sl_unfold_words
    simp only [View.readAt_eq_ld, harg2.read_unread, harg3.read_unread, View.ld_unit_zero (S := S512x2048) off0,
      View.readCov_unit_zero (S := S512x128) _ off0]
    rfl
  · iexists _; isplitr
    swap; · iexact H6
    ipureintro
    rw [read_last_whole _ _ off0]
    sl_unfold_words
    simp only [View.readAt_eq_ld, harg3.read_unread, harg4.read_unread, View.ld_unit_zero (S := S512x2048) off0,
      View.ld_unit_zero (S := S2048x512) off0, View.readCov_unit_zero (S := S512x1) _ off0]
    rfl

set_option maxHeartbeats 1000000 in
/-- The body at a point with j ≠ 0: the accumulators, at `a` and `s`, end at one step over them. -/
theorem run_add (c : Dev nD) (i : grid0.Coords)
    (arg2 : Memref sig .tc .vmem S16384x128 .bf16) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S512x128 .f32) (harg5 : arg5.IsWhole)
    (arg6 : Memref sig .tc .vmem S512x1 .f32) (harg6 : arg6.IsWhole) (hc : ¬firstCol i)
    (x0 : Vec F S16384x128 .bf16) (x1 : Vec F S512x2048 .f32) (x2 : Vec F S2048x512 .f32)
    (a : Vec F S512x128 .f32) (s : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 a) ∗ owns (c : Thread nD τ) arg6 fullShare (sumStep x1 x2 s)) -∗ K ⟨⟩))
      ⊢ wp frame (wpE (defs₀ (F := F)) Variants.none c none) E (cc0__mp_kernel i arg2 harg2 arg3 harg3 arg4 harg4 arg5 harg5 arg6 harg6) K := by
  simp only [cc0__mp_kernel_eq_skeleton]; unfold cc0__mp_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_last_whole _ _ off0]
    sl_unfold_words
    simp only [View.readAt_eq_ld, harg2.read_unread, harg3.read_unread, harg5.read_unread, View.ld_unit_zero (S := S512x2048) off0,
      View.ld_unit_zero (S := S512x128) off0]
    rfl
  · iexists _; isplitr
    swap; · iexact H6
    ipureintro
    rw [read_last_whole _ _ off0]
    sl_unfold_words
    simp only [View.readAt_eq_ld, harg3.read_unread, harg4.read_unread, harg6.read_unread, View.ld_unit_zero (S := S512x2048) off0,
      View.ld_unit_zero (S := S2048x512) off0, View.ld_unit_zero (S := S512x1) off0]
    rfl

end Cert.Kernel.Mp

end
-- ==== Proof.K.Carried.lean ====
/-
  What the two accumulators hold after every grid point, the pipeline's proof data, the body obligation, the run of
  @main, and the frame.

  The grid is walked row-major, the second coordinate fastest: point t is (i, j) = (t / 8, t % 8). The result windows'
  block index is i alone, so their staging buffers are written back only at the points with t % 8 = 7 and are carried
  from one point to the next otherwise. Hence after point t the buffers hold one step (`accStep`, `sumStep`) over the
  zeros when t % 8 = 0, and one step over what point t - 1 left otherwise: `heldAt`, by recursion on t. The input
  windows' buffers hold their blocks throughout. With this as the proof data the body obligation at a point is the body's
  triple of its case; the launch theorem for a region followed by host lines gives the run, whose post holds every
  window's array at the proof data's final contents and every other buffer as the concatenation leaves it.
-/
import proofs.«167608_j52012053954612_1_alg».proof.Proof.K.Step

set_option maxRecDepth 16384

noncomputable section

namespace Cert.Kernel.Mp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at their literal types -/

/-- The bf16 node features (the whole array: window 0's one block). -/
abbrev nodesIn (c : Dev nD) (t : Fin cfg0.N) : Vec F S16384x128 .bf16 := blockAt m c 0 t
/-- The adjacency block of point `t`. -/
abbrev adjIn (c : Dev nD) (t : Fin cfg0.N) : Vec F S512x2048 .f32 := blockAt m c 1 t
/-- The edge-feature block of point `t`. -/
abbrev edgesIn (c : Dev nD) (t : Fin cfg0.N) : Vec F S2048x512 .f32 := blockAt m c 2 t

/-! ## The accumulators after each point -/

/-- The pair of accumulators. -/
abbrev Acc (F : FTy → Type) : Type := Vec F S512x128 .f32 × Vec F S512x1 .f32

/-- Both accumulators zeroed. -/
def zeroAcc : Acc F := (k0_pay1, k0_pay2)

/-- One point's step on the pair. -/
def stepAt (c : Dev nD) (t : Fin cfg0.N) (p : Acc F) : Acc F :=
  (accStep (grid0.coords t) (nodesIn m c t) (adjIn m c t) p.1, sumStep (adjIn m c t) (edgesIn m c t) p.2)

/-- What the accumulators' staging buffers hold after the body at position `n`. -/
def heldAt (c : Dev nD) : (n : ℕ) → n < cfg0.N → Acc F
  | 0, hn => stepAt m c ⟨0, hn⟩ zeroAcc
  | n + 1, hn => stepAt m c ⟨n + 1, hn⟩ (if (n + 1) % 8 = 0 then zeroAcc else heldAt c n (Nat.lt_of_succ_lt hn))

/-- At a point with j = 0: one step over the zeros. -/
theorem heldAt_reset (c : Dev nD) (t : Fin cfg0.N) (h : t.val % 8 = 0) :
    heldAt m c t.val t.isLt = stepAt m c t zeroAcc := by
  obtain ⟨n, hn⟩ := t
  cases n with
  | zero => rfl
  | succ n => show stepAt m c _ (if (n + 1) % 8 = 0 then _ else _) = _; rw [if_pos h]

/-- At a point with j ≠ 0: one step over what the point before left. -/
theorem heldAt_add (c : Dev nD) (t : Fin cfg0.N) (h : ¬t.val % 8 = 0) :
    heldAt m c t.val t.isLt = stepAt m c t (heldAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-! ## The pipeline's proof data -/

/-- On core `c`: the arrays as the region finds them; after the body at point `t` each input's buffer at its block and the
    accumulators' at `heldAt`; the class invariant (the generator register; the kernel has no scratch); nothing owed;
    full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => (heldAt m c t.val t.isLt).1
    | ⟨4, _⟩ => (heldAt m c t.val t.isLt).2
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_nodes (c : Dev nD) (t : Fin cfg0.N) : (pdata m 0 c).after 0 t = blockAt m c 0 t := by dsimp only [pdata]
theorem after_adj (c : Dev nD) (t : Fin cfg0.N) : (pdata m 0 c).after 1 t = blockAt m c 1 t := by dsimp only [pdata]
theorem after_edges (c : Dev nD) (t : Fin cfg0.N) : (pdata m 0 c).after 2 t = blockAt m c 2 t := by dsimp only [pdata]
theorem after_acc (c : Dev nD) (t : Fin cfg0.N) : (pdata m 0 c).after 3 t = (heldAt m c t.val t.isLt).1 := by dsimp only [pdata]
theorem after_sum (c : Dev nD) (t : Fin cfg0.N) : (pdata m 0 c).after 4 t = (heldAt m c t.val t.isLt).2 := by dsimp only [pdata]

theorem before_nodes (c : Dev nD) (t : Fin cfg0.N) (d) : (pdata m 0 c).before 0 t d = blockAt m c 0 t :=
  staged_nodes m (pdata m 0 c) (pdata_A m c 0) (after_nodes m c) t d
theorem before_adj (c : Dev nD) (t : Fin cfg0.N) (d) : (pdata m 0 c).before 1 t d = blockAt m c 1 t :=
  staged_adj m (pdata m 0 c) (pdata_A m c 1) (after_adj m c) t d
theorem before_edges (c : Dev nD) (t : Fin cfg0.N) (d) : (pdata m 0 c).before 2 t d = blockAt m c 2 t :=
  staged_edges m (pdata m 0 c) (pdata_A m c 2) (after_edges m c) t d

/-- At a point with j ≠ 0 an accumulator's buffer holds what the point before left: the point is not the first, and the
    buffer was not written back in between (write-backs happen after the points with t % 8 = 7). -/
theorem before_acc (c : Dev nD) (t : Fin cfg0.N) (h : ¬t.val % 8 = 0) (d) :
    (pdata m 0 c).before 3 t d = (heldAt m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun hf => by have := (flush0_3 _).mp hf; dsimp only at this; omega)
    (fun _ => rfl) (fun _ _ => rfl)]
  dsimp only [pdata]
theorem before_sum (c : Dev nD) (t : Fin cfg0.N) (h : ¬t.val % 8 = 0) (d) :
    (pdata m 0 c).before 4 t d = (heldAt m c (t.val - 1) (Nat.lt_of_le_of_lt (Nat.sub_le _ _) t.isLt)).2 := by
  have hN : t.val < 256 := lt_of_lt_of_eq t.isLt (show cfg0.N = 256 from N_0)
  rw [Dat.before_out_kept _ 4 rfl t (by omega) (Bool.eq_false_iff.mpr fun hf => by have := (flush0_4 _).mp hf; dsimp only at this; omega)
    (fun _ => rfl) (fun _ _ => rfl)]
  dsimp only [pdata]

/-! ## The body obligation -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (mNodes t) fullShare ((pdata m 0 c).before 0 t d))
    ∗ (∃ d, owns (c : Thread nD τ) (mAdj t) fullShare ((pdata m 0 c).before 1 t d))
    ∗ (∃ d, owns (c : Thread nD τ) (mEdges t) fullShare ((pdata m 0 c).before 2 t d))
    ∗ (∃ d, owns (c : Thread nD τ) (mAcc t) fullShare ((pdata m 0 c).before 3 t d))
    ∗ (∃ d, owns (c : Thread nD τ) (mSum t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (mNodes t) fullShare ((pdata m 0 c).after 0 t)
    ∗ owns (c : Thread nD τ) (mAdj t) fullShare ((pdata m 0 c).after 1 t)
    ∗ owns (c : Thread nD τ) (mEdges t) fullShare ((pdata m 0 c).after 2 t)
    ∗ owns (c : Thread nD τ) (mAcc t) fullShare ((pdata m 0 c).after 3 t)
    ∗ owns (c : Thread nD τ) (mSum t) fullShare ((pdata m 0 c).after 4 t))

set_option maxHeartbeats 800000 in
/-- The body at any point: the inputs' buffers hold their blocks; where j = 0 the accumulators' buffers hold anything and
    the body's zeroing triple applies, elsewhere they hold what the point before left and the adding triple applies; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_nodes, before_adj, before_edges]
  rw [show (pdata m 0 c).Φ t.succ = (pdata m 0 c).Φ t.castSucc from rfl,
    show (pdata m 0 c).owesAt () t.succ = (pdata m 0 c).owesAt () t.castSucc from rfl,
    after_nodes, after_adj, after_edges, after_acc, after_sum]
  by_cases h0 : t.val % 8 = 0
  · rw [heldAt_reset m c t h0]
    unfold stepAt zeroAcc
    iintro ⟨HΦ, Ho, ⟨%d0, H0⟩, ⟨%d1, H1⟩, ⟨%d2, H2⟩, ⟨%d3, H3⟩, ⟨%d4, H4⟩⟩
    iapply (run_reset c (grid0.coords t) _ _ _ _ _ _ _ _ _ _ ((firstCol_iff t).mpr h0) (nodesIn m c t) (adjIn m c t) (edgesIn m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [heldAt_add m c t h0]
    simp only [before_acc m c t h0, before_sum m c t h0]
    unfold stepAt
    iintro ⟨HΦ, Ho, ⟨%d0, H0⟩, ⟨%d1, H1⟩, ⟨%d2, H2⟩, ⟨%d3, H3⟩, ⟨%d4, H4⟩⟩
    iapply (run_add c (grid0.coords t) _ _ _ _ _ _ _ _ _ _ (fun hc => h0 ((firstCol_iff t).mp hc)) (nodesIn m c t) (adjIn m c t) (edgesIn m c t) _ _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    window's array at the proof data's final contents and every other unscoped buffer as the concatenation leaves it. -/
theorem run_main : θ_run defs (onTc (τ := τ) (main (F := F))) (s₀ m ρ)
    (Pipeline.FramePost cfgs (pdata m) 0 (Pipeline.afterTail₀ cfgs (pdata m) 0 (entryVal m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entryVal m) (opss := [hostOps1]) (hsub := tail_within) (hfresh := tail_fresh) (hkeep := tail_keeps_arrays)
    (hmain := main_split m Variants.none) (hA := pdata_A m) (hΦ := fun _ _ => rfl)

/-- The frame: the program runs and its three argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept_of_run m ρ (pdata m) (pdata_A m) (run_main m ρ)

end Cert.Kernel.Mp

end
-- ==== Proof.KI.Around.lean ====
/-
  @main of the kernel's program around its one region, and what the region's windows hold.

  @main is three items: the conversion of the node features to bf16 (one host line, writing `main_v0`), the region
  (a 32 x 8 grid; windows: 0 = the bf16 node features, whole; 1 = the adjacency block (i, j) of 512 x 2048;
  2 = the edge-feature block (j, i) of 2048 x 512; 3 = the 512 x 128 block i of the first result; 4 = the 512 x 1 block i
  of the second result), and the concatenation of the node features with the two results along axis 1 (one host line,
  writing `main_v2`). Here: the buffers' contents when the region is entered (the valuation after the first line);
  that @main is "first line; region; last line"; that the last line touches only unscoped buffers, allocates nothing and
  writes no window's array; that the three argument arrays are untouched by the first line; each window's block at a
  grid point, and that an input window's staging buffer holds its block at every point; and how the frame claim's post
  follows from a run that ends with the windows' arrays at the proof data's contents and every other buffer as the
  last line leaves it. Everything is stated for any float instance.
-/
import proofs.«167608_j52012053954612_1_alg».proof.Proof.Gen.KernelIdeal.Launch
import proofs.«167608_j52012053954612_1_alg».proof.Proof.Gen.KernelIdeal.Skeleton
import proofs.«167608_j52012053954612_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffer contents when the region is entered: the launch contents after the bf16 conversion. -/
abbrev entryVal (c : Dev nD) : Valuation τ sig (Elt F) := StableHlo.after (List.flatten [hostOps0]) (fun b => m (c, b))
/-- The same, read at a TensorCore reference. -/
abbrev entry (c : Dev nD) (b : Ref sig .tc) : Buf (Elt F) ((c : Thread nD τ).loc b) := entryVal m c (Proc.devRef .tc b)

theorem head_allocates_nothing : (hostOps0 : List (HloOp τ sig (Elt F))).Forall fun op => op.fresh = ∅ := by
  simp only [List.Forall]; repeat' constructor
theorem tail_allocates_nothing : (hostOps1 : List (HloOp τ sig (Elt F))).Forall fun op => op.fresh = ∅ := by
  simp only [List.Forall]; repeat' constructor

/-- @main is the conversion, the region, the concatenation: it reduces to the region continued by the concatenation,
    entered at `entry`. -/
theorem main_split (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact head_allocates_nothing) main_chain

/-- The concatenation touches unscoped TensorCore buffers only: the windows' arrays and the buffers that bypass the region. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_allocates_nothing) op hop
/-- It writes `main_v2` only, which is no window's array. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nary_writes, Finset.mem_singleton] <;> exact StableHlo.devRef_ne_of_ne (by decide)

/-- The conversion writes `main_v0` only: a buffer other than `main_v0` is entered as launched. -/
theorem entry_of_ne (c : Dev nD) (b : Ref sig .tc) (hb : b ≠ main_v0) : entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne hb))

theorem entry_nodes (c : Dev nD) : entry m c main_arg0 = m ((c : Thread nD τ).loc main_arg0) := entry_of_ne m c _ (by decide)
theorem entry_edges (c : Dev nD) : entry m c main_arg1 = m ((c : Thread nD τ).loc main_arg1) := entry_of_ne m c _ (by decide)
theorem entry_adj (c : Dev nD) : entry m c main_arg2 = m ((c : Thread nD τ).loc main_arg2) := entry_of_ne m c _ (by decide)

/-- The concatenation does not write `main_arg0`, and no window stages it: it ends as launched. -/
theorem exit_nodes (dats : (p : Fin 1) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nary_writes, Finset.mem_singleton]
      exact StableHlo.devRef_ne_of_ne (by decide))),
    Pipeline.withArrays_of_ne _ c (entryVal m c) _ main_arg0 (by exact (by decide : ∀ w, Pipeline.arrRef spec0 w ≠ main_arg0))]
  exact entry_nodes m c

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, fetched there or not, for any proof data
    whose array is the entry contents and whose body leaves the block in place: the window is uncut and never idle, and
    where it is not fetched its block index has not moved. One statement per input window. -/
theorem staged_nodes {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged_adj {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged_edges {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The argument arrays after a run -/

/-- The frame claim's post from a run that ends with each window's array at the proof data's final contents and every other
    unscoped buffer as the concatenation leaves it: `main_arg0` bypasses the region and the concatenation does not write
    it; `main_arg1` and `main_arg2` are the arrays of the input windows 2 and 1, which end at their entry contents. -/
theorem args_kept_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (Pipeline.afterTail₀ cfgs dats 0 (entryVal m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_nodes m dats c),
     ((h c).1 2).trans (((dats 0 c).arrAt_in 2 rfl _).trans ((hA c 2).trans (entry_edges m c))),
     ((h c).1 1).trans (((dats 0 c).arrAt_in 1 rfl _).trans ((hA c 1).trans (entry_adj m c)))⟩) h

/-! ## The body's branch -/

/-- The condition of the body's one `scf.if`: the second grid coordinate is zero. -/
abbrev firstCol (i : grid0.Coords) : Prop := (Scalar.cmpi .ne (Scalar.extui (Scalar.cmpi .eq (BitVec.ofNat 32 (i 1).val) 0#32)) 0#32) = 1#1
/-- It holds at the points that are multiples of 8 (the grid is 32 x 8, the second coordinate the fast one). -/
theorem firstCol_iff : ∀ t : Fin cfg0.N, firstCol (grid0.coords t) ↔ t.val % 8 = 0 :=
  (by decide +kernel : ∀ t : Fin grid0.N, firstCol (grid0.coords t) ↔ t.val % 8 = 0)

/-- Both result windows are live at every point. -/
theorem live_acc : ∀ t : Fin cfg0.N, cfg0.idle 3 (grid0.coords t) = false := by decide +kernel
theorem live_sum : ∀ t : Fin cfg0.N, cfg0.idle 4 (grid0.coords t) = false := by decide +kernel

/-! ## The staging memrefs at a point -/

abbrev mNodes (t : Fin cfg0.N) : Memref sig .tc .vmem S16384x128 .bf16 := win0_0.stage (cfg0.slots t 0)
abbrev hNodes (t : Fin cfg0.N) : (mNodes t).IsWhole := hstage0_0 ((cfg0.slots t 0).cast nbuf0_0)
abbrev mAdj (t : Fin cfg0.N) : Memref sig .tc .vmem S512x2048 .f32 := win0_1.stage (cfg0.slots t 1)
abbrev hAdj (t : Fin cfg0.N) : (mAdj t).IsWhole := hstage0_1 ((cfg0.slots t 1).cast nbuf0_1)
abbrev mEdges (t : Fin cfg0.N) : Memref sig .tc .vmem S2048x512 .f32 := win0_2.stage (cfg0.slots t 2)
abbrev hEdges (t : Fin cfg0.N) : (mEdges t).IsWhole := hstage0_2 ((cfg0.slots t 2).cast nbuf0_2)
abbrev mAcc (t : Fin cfg0.N) : Memref sig .tc .vmem S512x128 .f32 := win0_3.stage (cfg0.slots t 3)
abbrev hAcc (t : Fin cfg0.N) : (mAcc t).IsWhole := hstage0_3 ((cfg0.slots t 3).cast nbuf0_3)
abbrev mSum (t : Fin cfg0.N) : Memref sig .tc .vmem S512x1 .f32 := win0_4.stage (cfg0.slots t 4)
abbrev hSum (t : Fin cfg0.N) : (mSum t).IsWhole := hstage0_4 ((cfg0.slots t 4).cast nbuf0_4)

end Cert.KernelIdeal.Mp

end
-- ==== Proof.KI.Step.lean ====
/-
  One grid point of the kernel body, as a triple over its own memref parameters.

  At a point (i, j) the body adds to the 512 x 128 accumulator the product of the adjacency block with rows
  2048 j .. 2048 j + 2047 of the bf16 node features, and to the 512 x 1 accumulator the row sums of the adjacency block
  times the transposed edge-feature block; when j = 0 it first stores zeros into both accumulators. So what it leaves is
  `accStep` / `sumStep` of what the accumulators held: of the zeros when j = 0 (whatever the buffers held), of their
  contents otherwise. Each store covers its whole buffer, so the buffer reads back as the last payload stored; a load
  after the zeroing store reads the zeros.
-/
import proofs.«167608_j52012053954612_1_alg».proof.Proof.KI.Around
import Idealize.ShloMosaic.Lib.Pipeline.Value

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are zero. -/
theorem off0 : (![0, 0] : Fin 2 → ℕ) = fun _ => 0 := funext fun a => by fin_cases a <;> rfl

/-- A buffer whose LAST store went through the whole-buffer rectangle reads back as that store's payload. -/
theorem read_last_whole {sig : RefSig} {κ : Kind} {sp : Space} {S : Shape} {e : EltTy} {Val : EltTy → Type} [∀ e, Nonempty (Val e)]
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- Rows 2048 j .. 2048 j + 2047 of the (whole, resident) bf16 node features: what the body loads at point (i, j). -/
def nodeRows (i : grid0.Coords) (x0 : Vec F S16384x128 .bf16) : Vec F S2048x128 .bf16 :=
  View.ld x0 (Rect.unit (s := S16384x128) (k0_off1 i) S2048x128.size (k0_off1_inb i))

/-- The 512 x 128 accumulator after the point: what it held plus the adjacency block times the node rows. -/
def accStep (i : grid0.Coords) (x0 : Vec F S16384x128 .bf16) (x1 : Vec F S512x2048 .f32) (a : Vec F S512x128 .f32) : Vec F S512x128 .f32 :=
  k0_pay3 x1 (nodeRows i x0) a
/-- The 512 x 1 accumulator after the point: what it held plus the row sums of adjacency times transposed edge block. -/
def sumStep (x1 : Vec F S512x2048 .f32) (x2 : Vec F S2048x512 .f32) (s : Vec F S512x1 .f32) : Vec F S512x1 .f32 :=
  k0_pay4 x1 x2 s

set_option maxHeartbeats 1000000 in
/-- The body at a point with j = 0: the accumulators, at anything, end at one step over the zeros. -/
theorem run_reset (c : Dev nD) (i : grid0.Coords)
    (arg2 : Memref sig .tc .vmem S16384x128 .bf16) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S512x128 .f32) (harg5 : arg5.IsWhole)
    (arg6 : Memref sig .tc .vmem S512x1 .f32) (harg6 : arg6.IsWhole) (hc : firstCol i)
    (x0 : Vec F S16384x128 .bf16) (x1 : Vec F S512x2048 .f32) (x2 : Vec F S2048x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 k0_pay1) ∗ owns (c : Thread nD τ) arg6 fullShare (sumStep x1 x2 k0_pay2)) -∗ K ⟨⟩))
      ⊢ wp frame (wpE (defs₀ (F := F)) Variants.none c none) E (cc0__mp_kernel i arg2 harg2 arg3 harg3 arg4 harg4 arg5 harg5 arg6 harg6) K := by
  simp only [cc0__mp_kernel_eq_skeleton]; unfold cc0__mp_kernel_skel
  unfold owns
  iintro ⟨⟨%f0, %hf0, H0⟩, ⟨%f1, %hf1, H1⟩, ⟨%f2, %hf2, H2⟩, ⟨%d5, %f5, -, H5⟩, ⟨%d6, %f6, -, H6⟩, Hk⟩
  obtain rfl := harg2.eq_unread hf0; obtain rfl := harg3.eq_unread hf1; obtain rfl := harg4.eq_unread hf2
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_last_whole _ _ off0]
    sl_unfold_words
    simp only [View.readAt_eq_ld, harg2.read_unread, harg3.read_unread, View.ld_unit_zero (S := S512x2048) off0,
      View.readCov_unit_zero (S := S512x128) _ off0]
    rfl
  · iexists _; isplitr
    swap; · iexact H6
    ipureintro
    rw [read_last_whole _ _ off0]
    sl_unfold_words
    simp only [View.readAt_eq_ld, harg3.read_unread, harg4.read_unread, View.ld_unit_zero (S := S512x2048) off0,
      View.ld_unit_zero (S := S2048x512) off0, View.readCov_unit_zero (S := S512x1) _ off0]
    rfl

set_option maxHeartbeats 1000000 in
/-- The body at a point with j ≠ 0: the accumulators, at `a` and `s`, end at one step over them. -/
theorem run_add (c : Dev nD) (i : grid0.Coords)
    (arg2 : Memref sig .tc .vmem S16384x128 .bf16) (harg2 : arg2.IsWhole) (arg3 : Memref sig .tc .vmem S512x2048 .f32) (harg3 : arg3.IsWhole)
    (arg4 : Memref sig .tc .vmem S2048x512 .f32) (harg4 : arg4.IsWhole) (arg5 : Memref sig .tc .vmem S512x128 .f32) (harg5 : arg5.IsWhole)
    (arg6 : Memref sig .tc .vmem S512x1 .f32) (harg6 : arg6.IsWhole) (hc : ¬firstCol i)
    (x0 : Vec F S16384x128 .bf16) (x1 : Vec F S512x2048 .f32) (x2 : Vec F S2048x512 .f32)
    (a : Vec F S512x128 .f32) (s : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare a ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (accStep i x0 x1 a) ∗ owns (c : Thread nD τ) arg6 fullShare (sumStep x1 x2 s)) -∗ K ⟨⟩))
      ⊢ wp frame (wpE (defs₀ (F := F)) Variants.none c none) E (cc0__mp_kernel i arg2 harg2 arg3 harg3 arg4 harg4 arg5 harg5 arg6 harg6) K := by
  simp only [cc0__mp_kernel_eq_skeleton]; unfold cc0__mp_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf5; obtain rfl := harg6.eq_unread hf6
  sl_exec (disch := first | exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H5]
  · iexists _; isplitr
    swap; · iexact H5
    ipureintro
    rw [read_last_whole _ _ off0]
    sl_unfold_words
    simp only [View.readAt_eq_ld, harg2.read_unread, harg3.read_unread, harg5.read_unread, View.ld_unit_zero (S := S512x2048) off0,
      View.ld_unit_zero (S := S512x128) off0]
    rfl
  · iexists _; isplitr
    swap; · iexact H6
    ipureintro
    rw [read_last_whole _ _ off0]
    sl_unfold_words
    simp only [View.readAt_eq_ld, harg3.read_unread, harg4.read_unread, harg6.read_unread, View.ld_unit_zero (S := S512x2048) off0,
      View.ld_unit_zero (S := S2048x512) off0, View.ld_unit_zero (S := S512x1) off0]
    rfl

end Cert.KernelIdeal.Mp

end
-- ==== Proof.KI.Carried.lean ====
/-
  What the two accumulators hold after every grid point, the pipeline's proof data, the body obligation, the run of
  @main, and the frame.

  The grid is walked row-major, the second coordinate fastest: point t is (i, j) = (t / 8, t % 8). The result windows'
  block index is i alone, so their staging buffers are written back only at the points with t % 8 = 7 and are carried
  from one point to the next otherwise. Hence after point t the buffers hold one step (`accStep`, `sumStep`) over the
  zeros when t % 8 = 0, and one step over what point t - 1 left otherwise: `heldAt`, by recursion on t. The input
  windows' buffers hold their blocks throughout. With this as the proof data the body obligation at a point is the body's
  triple of its case; the launch theorem for a region followed by host lines gives the run, whose post holds every
  window's array at the proof data's final contents and every other buffer as the concatenation leaves it.
-/
import proofs.«167608_j52012053954612_1_alg».proof.Proof.KI.Step

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at their literal types -/

/-- The bf16 node features (the whole array: window 0's one block). -/
abbrev nodesIn (c : Dev nD) (t : Fin cfg0.N) : Vec F S16384x128 .bf16 := blockAt m c 0 t
/-- The adjacency block of point `t`. -/
abbrev adjIn (c : Dev nD) (t : Fin cfg0.N) : Vec F S512x2048 .f32 := blockAt m c 1 t
/-- The edge-feature block of point `t`. -/
abbrev edgesIn (c : Dev nD) (t : Fin cfg0.N) : Vec F S2048x512 .f32 := blockAt m c 2 t

/-! ## The accumulators after each point -/

/-- The pair of accumulators. -/
abbrev Acc (F : FTy → Type) : Type := Vec F S512x128 .f32 × Vec F S512x1 .f32

/-- Both accumulators zeroed. -/
def zeroAcc : Acc F := (k0_pay1, k0_pay2)

/-- One point's step on the pair. -/
def stepAt (c : Dev nD) (t : Fin cfg0.N) (p : Acc F) : Acc F :=
  (accStep (grid0.coords t) (nodesIn m c t) (adjIn m c t) p.1, sumStep (adjIn m c t) (edgesIn m c t) p.2)

/-- What the accumulators' staging buffers hold after the body at position `n`. -/
def heldAt (c : Dev nD) : (n : ℕ) → n < cfg0.N → Acc F
  | 0, hn => stepAt m c ⟨0, hn⟩ zeroAcc
  | n + 1, hn => stepAt m c ⟨n + 1, hn⟩ (if (n + 1) % 8 = 0 then zeroAcc else heldAt c n (Nat.lt_of_succ_lt hn))

/-- At a point with j = 0: one step over the zeros. -/
theorem heldAt_reset (c : Dev nD) (t : Fin cfg0.N) (h : t.val % 8 = 0) :
    heldAt m c t.val t.isLt = stepAt m c t zeroAcc := by
  obtain ⟨n, hn⟩ := t
  cases n with
  | zero => rfl
  | succ n => show stepAt m c _ (if (n + 1) % 8 = 0 then _ else _) = _; rw [if_pos h]

/-- At a point with j ≠ 0: one step over what the point before left. -/
theorem heldAt_add (c : Dev nD) (t : Fin cfg0.N) (h : ¬t.val % 8 = 0) :
    heldAt m c t.val t.isLt = stepAt m c t (heldAt m c (t.val - 1) (Nat.lt_of_le_of_lt (Nat.sub_le _ _) t.isLt)) := by
  obtain ⟨n, hn⟩ := t
  cases n with
  | zero => exact absurd (Nat.zero_mod _) h
  | succ n => show stepAt m c _ (if (n + 1) % 8 = 0 then _ else _) = _; rw [if_neg h]; rfl

/-! ## The pipeline's proof data -/

/-- On core `c`: the arrays as the region finds them; after the body at point `t` each input's buffer at its block and the
    accumulators' at `heldAt`; the class invariant (the generator register; the kernel has no scratch); nothing owed;
    full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => (heldAt m c t.val t.isLt).1
    | ⟨4, _⟩ => (heldAt m c t.val t.isLt).2
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_nodes (c : Dev nD) (t : Fin cfg0.N) : (pdata m 0 c).after 0 t = blockAt m c 0 t := by dsimp only [pdata]
theorem after_adj (c : Dev nD) (t : Fin cfg0.N) : (pdata m 0 c).after 1 t = blockAt m c 1 t := by dsimp only [pdata]
theorem after_edges (c : Dev nD) (t : Fin cfg0.N) : (pdata m 0 c).after 2 t = blockAt m c 2 t := by dsimp only [pdata]
theorem after_acc (c : Dev nD) (t : Fin cfg0.N) : (pdata m 0 c).after 3 t = (heldAt m c t.val t.isLt).1 := by dsimp only [pdata]
theorem after_sum (c : Dev nD) (t : Fin cfg0.N) : (pdata m 0 c).after 4 t = (heldAt m c t.val t.isLt).2 := by dsimp only [pdata]

theorem before_nodes (c : Dev nD) (t : Fin cfg0.N) (d) : (pdata m 0 c).before 0 t d = blockAt m c 0 t :=
  staged_nodes m (pdata m 0 c) (pdata_A m c 0) (after_nodes m c) t d
theorem before_adj (c : Dev nD) (t : Fin cfg0.N) (d) : (pdata m 0 c).before 1 t d = blockAt m c 1 t :=
  staged_adj m (pdata m 0 c) (pdata_A m c 1) (after_adj m c) t d
theorem before_edges (c : Dev nD) (t : Fin cfg0.N) (d) : (pdata m 0 c).before 2 t d = blockAt m c 2 t :=
  staged_edges m (pdata m 0 c) (pdata_A m c 2) (after_edges m c) t d

/-- At a point with j ≠ 0 an accumulator's buffer holds what the point before left: the point is not the first, and the
    buffer was not written back in between (write-backs happen after the points with t % 8 = 7). -/
theorem before_acc (c : Dev nD) (t : Fin cfg0.N) (h : ¬t.val % 8 = 0) (d) :
    (pdata m 0 c).before 3 t d = (heldAt m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun hf => by have := (flush0_3 _).mp hf; dsimp only at this; omega)
    (fun _ => rfl) (fun _ _ => rfl)]
  dsimp only [pdata]
theorem before_sum (c : Dev nD) (t : Fin cfg0.N) (h : ¬t.val % 8 = 0) (d) :
    (pdata m 0 c).before 4 t d = (heldAt m c (t.val - 1) (Nat.lt_of_le_of_lt (Nat.sub_le _ _) t.isLt)).2 := by
  have hN : t.val < 256 := lt_of_lt_of_eq t.isLt (show cfg0.N = 256 from N_0)
  rw [Dat.before_out_kept _ 4 rfl t (by omega) (Bool.eq_false_iff.mpr fun hf => by have := (flush0_4 _).mp hf; dsimp only at this; omega)
    (fun _ => rfl) (fun _ _ => rfl)]
  dsimp only [pdata]

/-! ## The body obligation -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (mNodes t) fullShare ((pdata m 0 c).before 0 t d))
    ∗ (∃ d, owns (c : Thread nD τ) (mAdj t) fullShare ((pdata m 0 c).before 1 t d))
    ∗ (∃ d, owns (c : Thread nD τ) (mEdges t) fullShare ((pdata m 0 c).before 2 t d))
    ∗ (∃ d, owns (c : Thread nD τ) (mAcc t) fullShare ((pdata m 0 c).before 3 t d))
    ∗ (∃ d, owns (c : Thread nD τ) (mSum t) fullShare ((pdata m 0 c).before 4 t d)))

/-- and what it returns. -/
def bodyPost (c : Dev nD) (t : Fin cfg0.N) : sProp 𝕄 :=
  iprop((pdata m 0 c).Φ t.succ ∗ (pdata m 0 c).owesAt () t.succ
    ∗ owns (c : Thread nD τ) (mNodes t) fullShare ((pdata m 0 c).after 0 t)
    ∗ owns (c : Thread nD τ) (mAdj t) fullShare ((pdata m 0 c).after 1 t)
    ∗ owns (c : Thread nD τ) (mEdges t) fullShare ((pdata m 0 c).after 2 t)
    ∗ owns (c : Thread nD τ) (mAcc t) fullShare ((pdata m 0 c).after 3 t)
    ∗ owns (c : Thread nD τ) (mSum t) fullShare ((pdata m 0 c).after 4 t))

set_option maxHeartbeats 800000 in
/-- The body at any point: the inputs' buffers hold their blocks; where j = 0 the accumulators' buffers hold anything and
    the body's zeroing triple applies, elsewhere they hold what the point before left and the adding triple applies; the
    invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_nodes, before_adj, before_edges]
  rw [show (pdata m 0 c).Φ t.succ = (pdata m 0 c).Φ t.castSucc from rfl,
    show (pdata m 0 c).owesAt () t.succ = (pdata m 0 c).owesAt () t.castSucc from rfl,
    after_nodes, after_adj, after_edges, after_acc, after_sum]
  by_cases h0 : t.val % 8 = 0
  · rw [heldAt_reset m c t h0]
    unfold stepAt zeroAcc
    iintro ⟨HΦ, Ho, ⟨%d0, H0⟩, ⟨%d1, H1⟩, ⟨%d2, H2⟩, ⟨%d3, H3⟩, ⟨%d4, H4⟩⟩
    iapply (run_reset c (grid0.coords t) _ _ _ _ _ _ _ _ _ _ ((firstCol_iff t).mpr h0) (nodesIn m c t) (adjIn m c t) (edgesIn m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [heldAt_add m c t h0]
    simp only [before_acc m c t h0, before_sum m c t h0]
    unfold stepAt
    iintro ⟨HΦ, Ho, ⟨%d0, H0⟩, ⟨%d1, H1⟩, ⟨%d2, H2⟩, ⟨%d3, H3⟩, ⟨%d4, H4⟩⟩
    iapply (run_add c (grid0.coords t) _ _ _ _ _ _ _ _ _ _ (fun hc => h0 ((firstCol_iff t).mp hc)) (nodesIn m c t) (adjIn m c t) (edgesIn m c t) _ _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    window's array at the proof data's final contents and every other unscoped buffer as the concatenation leaves it. -/
theorem run_main : θ_run defs (onTc (τ := τ) (main (F := F))) (s₀ m ρ)
    (Pipeline.FramePost cfgs (pdata m) 0 (Pipeline.afterTail₀ cfgs (pdata m) 0 (entryVal m) [hostOps1])) :=
  Pipeline.θ_run_frame_around cfgs (pdata m) (0 : Fin 1) launch0 defs₀ Variants.none m ρ main
    (hbody := fun c => (body_obligation m c).loose) (hshare := fun c => (pdata m 0 c).share_full fun _ => rfl)
    (howed := fun _ _ => rfl) (V₀ := entryVal m) (opss := [hostOps1]) (hsub := tail_within) (hfresh := tail_fresh) (hkeep := tail_keeps_arrays)
    (hmain := main_split m Variants.none) (hA := pdata_A m) (hΦ := fun _ _ => rfl)

/-- The frame: the program runs and its three argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept_of_run m ρ (pdata m) (pdata_A m) (run_main m ρ)

end Cert.KernelIdeal.Mp

end
-- ==== Proof.KI.Payload.lean ====
/-
  One point's step on the accumulators, read at an index, on the extended reals.

  At `Ideal` the change of float format is the identity, the matrix unit's product into a zero accumulator is the plain
  sum over the contraction index, and the lane reduction is the plain sum over the lane index. So, entry by entry,
    accStep  : a[p, f] + sum over k < 2048 of adjBlock[p, k] * nodeRows[k, f],
    sumStep  : s[p, 0] + sum over k < 2048 of adjBlock[p, k] * edgeBlock[k, p],
  and `nodeRows` at (k, f) is the node features at row 2048 j + k, column f. The zeroing payloads are zero everywhere.
-/
import proofs.«167608_j52012053954612_1_alg».proof.Proof.KI.Step
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The zeroing payload of the 512 x 128 accumulator is zero at every entry. -/
theorem zeroAcc_apply (y : S512x128.Idx) : k0_pay1 (F := Ideal) y = 0 := by
  show Ideal.ofBits .f32 0x00000000#32 = 0
  exact Ideal.ofBits_zero_f32

/-- The zeroing payload of the 512 x 1 accumulator is zero at every entry. -/
theorem zeroSum_apply (y : S512x1.Idx) : k0_pay2 (F := Ideal) y = 0 := by
  show Ideal.ofBits .f32 0x00000000#32 = 0
  exact Ideal.ofBits_zero_f32

/-- The loaded node rows at (k, f): the node features at row 2048 j + k. (Any float instance.) -/
theorem nodeRows_apply {F : FTy → Type} [FloatOps F] (i : grid0.Coords) (x0 : Vec F S16384x128 .bf16) (k : Fin 2048) (f : Fin 128)
    (hk : (i 1).val * 2048 + k.val < 16384) :
    nodeRows i x0 (ix2 k f) = x0 (ix2 ⟨(i 1).val * 2048 + k.val, hk⟩ f) := by
  unfold nodeRows
  show x0 ((Rect.unit (s := S16384x128) (k0_off1 i) S2048x128.size (k0_off1_inb i)).toLoadRect.idx (ix2 k f)) = _
  refine congrArg x0 (funext fun a => Fin.ext ?_)
  have hi : (i 1).val < 8 := (i 1).isLt
  have hoff : (k0_off1 i) 0 = (i 1).val * 2048 := by
    show (BitVec.ofNat 32 (i 1).val * 2048#32).toNat = (i 1).val * 2048
    rw [BitVec.toNat_mul, BitVec.toNat_ofNat]
    show (i 1).val % 2 ^ 32 * 2048 % 2 ^ 32 = (i 1).val * 2048
    omega
  match a with
  | ⟨0, _⟩ =>
    show (k0_off1 i) 0 + 1 * k.val = (i 1).val * 2048 + k.val
    rw [hoff]; omega
  | ⟨1, _⟩ =>
    show 0 + 1 * f.val = f.val
    omega

/-- The left operand index of the product at output index j and contraction index q: row j 0. -/
theorem lhs_dot_0 (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
/-- … and column q 0. -/
theorem lhs_dot_1 (j : S512x128.Idx) (q : dot_S512x2048_S2048x128_S512x128_1_0_0_1_n_n.contr.Idx) :
    (dot_S512x2048_S2048x128_S512x128_1_0_0_1_n_n.lhsIdx j q 1).val = (q ⟨0, by decide⟩).val :=
  dot_S512x2048_S2048x128_S512x128_1_0_0_1_n_n.lhsIdx_val_of_single rfl j q
/-- The right operand index: row q 0 … -/
theorem rhs_dot_0 (j : S512x128.Idx) (q : dot_S512x2048_S2048x128_S512x128_1_0_0_1_n_n.contr.Idx) :
    (dot_S512x2048_S2048x128_S512x128_1_0_0_1_n_n.rhsIdx j q 0).val = (q ⟨0, by decide⟩).val :=
  dot_S512x2048_S2048x128_S512x128_1_0_0_1_n_n.rhsIdx_val_of_single rfl j q
/-- … and column j 1. -/
theorem rhs_dot_1 (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The 512 x 128 accumulator's step at (p, f). -/
theorem accStep_apply (i : grid0.Coords) (x0 : FVec Ideal S16384x128 .bf16) (x1 : FVec Ideal S512x2048 .f32) (a : FVec Ideal S512x128 .f32)
    (p : Fin 512) (f : Fin 128) :
    accStep (F := Ideal) i x0 x1 a (ix2 p f) = a (ix2 p f) + ∑ k : Fin 2048, x1 (ix2 p k) * nodeRows (F := Ideal) i x0 (ix2 k f) := by
  unfold accStep k0_pay3
  refine (addf_apply _ _ _).trans ?_
  rw [shapeCast_self, shapeCast_self]
  refine congrArg (a (ix2 p f) + ·) ?_
  refine (Ideal.matmul_constant_zero_apply (φ₁ := .bf16) (φ₂ := .bf16) dot_S512x2048_S2048x128_S512x128_1_0_0_1_n_n none
    (truncf .bf16 x1 bitsLt_bf16_f32) (nodeRows (F := Ideal) i x0) (ix2 p f)).trans ?_
  rw [← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 p f) ((contrEquiv1 dot_S512x2048_S2048x128_S512x128_1_0_0_1_n_n 2048 rfl rfl).symm k) = ix2 p k := funext fun b => Fin.ext (by
    match b with
    | ⟨0, _⟩ => exact lhs_dot_0 _ _
    | ⟨1, _⟩ => exact (lhs_dot_1 _ _).trans hk)
  have er : dot_S512x2048_S2048x128_S512x128_1_0_0_1_n_n.rhsIdx (ix2 p f) ((contrEquiv1 dot_S512x2048_S2048x128_S512x128_1_0_0_1_n_n 2048 rfl rfl).symm k) = ix2 k f := funext fun b => Fin.ext (by
    match b with
    | ⟨0, _⟩ => exact (rhs_dot_0 _ _).trans hk
    | ⟨1, _⟩ => exact rhs_dot_1 _ _)
  rw [el, er]
  rfl

/-- The 512 x 1 accumulator's step at (p, 0). -/
theorem sumStep_apply (x1 : FVec Ideal S512x2048 .f32) (x2 : FVec Ideal S2048x512 .f32) (s : FVec Ideal S512x1 .f32) (p : Fin 512) :
    sumStep (F := Ideal) x1 x2 s (ix2 p (0 : Fin 1)) = s (ix2 p (0 : Fin 1)) + ∑ k : Fin 2048, x1 (ix2 p k) * x2 (ix2 k p) := by
  unfold sumStep k0_pay4
  refine (addf_apply _ _ _).trans ?_
  rw [shapeCast_self]
  refine congrArg (s (ix2 p (0 : Fin 1)) + ·) ?_
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single _ _ _ _ _ _).trans ?_
  refine Finset.sum_congr rfl fun k _ => ?_
  refine (mulf_apply _ _ _).trans ?_
  have e1 : reduces_S512x2048_S512.lift (ix1 p) k = ix2 p k := funext fun a => Fin.ext (by
    match a with
    | ⟨0, _⟩ => rfl
    | ⟨1, _⟩ => rfl)
  rw [e1]
  refine congrArg (x1 (ix2 p k) * ·) ?_
  exact transpose_apply [1, 0] x2 transposes_S2048x512_p1_0_S512x2048 (ix2 p k) (ix2 k p) (fun b => match b with
    | ⟨0, _⟩ => rfl
    | ⟨1, _⟩ => rfl)

end Cert.KernelIdeal.Mp

end
-- ==== Proof.Spec.lean ====
/-
  The specification: what the two computed results are, as functions of the argument arrays, on the extended reals.

  With A the N x N adjacency, X the N x 128 node features and E the N x N edge features (N = 16384):
    neighbour node features  (A X)[r, f]        = sum over k of A[r, k] * X[k, f],
    neighbour edge features  diag(A E)[r]       = sum over k of A[r, k] * E[k, r].
  Entries are addressed by natural-number coordinates (`at2`, zero outside the array), so that splitting the contraction
  index k into 8 blocks of 2048, which is how the kernel walks it, is arithmetic on naturals. Only commutativity and
  associativity of addition are used: the sums may be regrouped whatever the entries are.
-/
import Idealize.ShloMosaic.PureOps.Ideal
import Idealize.ShloMosaic.Lib.ValueIdx
import Mathlib.Algebra.BigOperators.Fin
import Mathlib.Algebra.BigOperators.Group.Finset.Sigma

noncomputable section

namespace Cert.MpSpec

open Idealize.ShloMosaic Idealize.ShloMosaic.ValueIdx

abbrev NN : Shape := ⟨2, ![16384, 16384]⟩
abbrev NF : Shape := ⟨2, ![16384, 128]⟩
abbrev N1 : Shape := ⟨2, ![16384, 1]⟩

/-- The entry of a rank-2 array at natural-number coordinates; zero outside the array. -/
def at2 {a b : ℕ} (x : (⟨2, ![a, b]⟩ : Shape).Idx → EReal) (r k : ℕ) : EReal :=
  if h : r < a ∧ k < b then x (ix2 ⟨r, h.1⟩ ⟨k, h.2⟩) else 0

theorem at2_ix2 {a b : ℕ} (x : (⟨2, ![a, b]⟩ : Shape).Idx → EReal) (p : Fin a) (q : Fin b) :
    at2 x p.val q.val = x (ix2 p q) := by
  unfold at2; rw [dif_pos ⟨p.isLt, q.isLt⟩]

theorem at2_idx {a b : ℕ} (x : (⟨2, ![a, b]⟩ : Shape).Idx → EReal) (i : (⟨2, ![a, b]⟩ : Shape).Idx) :
    at2 x (i 0).val (i 1).val = x i := by
  exact (at2_ix2 x (i 0) (i 1)).trans (congrArg x (eq_ix2 i).symm)

/-- Row r of A against column f of X. -/
def rowDot (adj : NN.Idx → EReal) (nf : NF.Idx → EReal) (r f : ℕ) : EReal :=
  ∑ k : Fin 16384, at2 adj r k.val * at2 nf k.val f
/-- Row r of A against column r of E. -/
def rowDiag (adj ef : NN.Idx → EReal) (r : ℕ) : EReal :=
  ∑ k : Fin 16384, at2 adj r k.val * at2 ef k.val r

/-- The neighbour node features, as an array. -/
def nbrNodes (adj : NN.Idx → EReal) (nf : NF.Idx → EReal) : NF.Idx → EReal := fun i => rowDot adj nf (i 0).val (i 1).val
/-- The neighbour edge features, as an N x 1 array. -/
def nbrEdges (adj ef : NN.Idx → EReal) : N1.Idx → EReal := fun i => rowDiag adj ef (i 0).val

/-- A sum over 16384 consecutive naturals is the sum over 8 blocks of 2048. -/
theorem sum_blocks (g : ℕ → EReal) :
    ∑ k : Fin 16384, g k.val = ∑ j : Fin 8, ∑ k : Fin 2048, g (j.val * 2048 + k.val) := by
  rw [← Fintype.sum_prod_type' (f := fun (j : Fin 8) (k : Fin 2048) => g (j.val * 2048 + k.val)),
    ← Equiv.sum_comp (finProdFinEquiv (m := 8) (n := 2048)) (fun k : Fin (8 * 2048) => g k.val)]
  refine Finset.sum_congr rfl fun p _ => ?_
  show g (p.2.val + 2048 * p.1.val) = _
  rw [Nat.add_comm, Nat.mul_comm]

theorem rowDot_blocks (adj : NN.Idx → EReal) (nf : NF.Idx → EReal) (r f : ℕ) :
    rowDot adj nf r f = ∑ j : Fin 8, ∑ k : Fin 2048, at2 adj r (j.val * 2048 + k.val) * at2 nf (j.val * 2048 + k.val) f :=
  sum_blocks fun k => at2 adj r k * at2 nf k f

theorem rowDiag_blocks (adj ef : NN.Idx → EReal) (r : ℕ) :
    rowDiag adj ef r = ∑ j : Fin 8, ∑ k : Fin 2048, at2 adj r (j.val * 2048 + k.val) * at2 ef (j.val * 2048 + k.val) r :=
  sum_blocks fun k => at2 adj r k * at2 ef k r

/-- Eight terms added one after the other onto zero are their sum. -/
theorem eight_steps (T : ℕ → EReal) :
    0 + T 0 + T 1 + T 2 + T 3 + T 4 + T 5 + T 6 + T 7 = ∑ j : Fin 8, T j.val := by
  rw [Fin.sum_univ_eight, zero_add]
  rfl

end Cert.MpSpec

end
-- ==== Proof.KI.Blocks.lean ====
/-
  The accumulators' contents after every grid point, entry by entry, on the extended reals.

  Point t is (i, j) = (t / 8, t % 8). The adjacency block read there is rows 512 i .., columns 2048 j .. of A; the
  edge-feature block is rows 2048 j .., columns 512 i .. of E; the node rows loaded are rows 2048 j .. of X. So one
  step adds to the entry (p, f) of the first accumulator block j's share of row 512 i + p of A against column f of X,
  and to the entry (p, 0) of the second block j's share of row 512 i + p of A against column 512 i + p of E. Since
  the accumulators are zeroed where j = 0, after point t they hold the shares of the blocks 0 .. t % 8 added up
  (by induction on t), and at the points where they are written back (t % 8 = 7) all eight, which is the whole row
  sum.
-/
import proofs.«167608_j52012053954612_1_alg».proof.Proof.KI.Carried
import proofs.«167608_j52012053954612_1_alg».proof.Proof.KI.Payload
import proofs.«167608_j52012053954612_1_alg».proof.Proof.Spec

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.MpSpec

/-! ## Block j's share of a row sum -/

/-- Columns 2048 j .. 2048 j + 2047 of row r of A against the same rows of column f of X. -/
def dotTerm (adj : NN.Idx → EReal) (nf : NF.Idx → EReal) (r f j : ℕ) : EReal :=
  ∑ k : Fin 2048, at2 adj r (j * 2048 + k.val) * at2 nf (j * 2048 + k.val) f
/-- The same against column r of E. -/
def diagTerm (adj ef : NN.Idx → EReal) (r j : ℕ) : EReal :=
  ∑ k : Fin 2048, at2 adj r (j * 2048 + k.val) * at2 ef (j * 2048 + k.val) r

theorem rowDot_range (adj : NN.Idx → EReal) (nf : NF.Idx → EReal) (r f : ℕ) :
    rowDot adj nf r f = ∑ j ∈ Finset.range 8, dotTerm adj nf r f j :=
  (rowDot_blocks adj nf r f).trans (Finset.sum_range (fun j => dotTerm adj nf r f j)).symm
theorem rowDiag_range (adj ef : NN.Idx → EReal) (r : ℕ) :
    rowDiag adj ef r = ∑ j ∈ Finset.range 8, diagTerm adj ef r j :=
  (rowDiag_blocks adj ef r).trans (Finset.sum_range (fun j => diagTerm adj ef r j)).symm

/-! ## Where the blocks sit -/

/-- The block indices of the windows and the second grid coordinate at point t, decided over the 256 points. -/
theorem where_blocks : ∀ t : Fin cfg0.N,
    (win0_0.index t 0 = 0 ∧ win0_0.index t 1 = 0)
    ∧ (win0_1.index t 0 = t.val / 8 ∧ win0_1.index t 1 = t.val % 8)
    ∧ (win0_2.index t 0 = t.val % 8 ∧ win0_2.index t 1 = t.val / 8)
    ∧ (win0_3.index t 0 = t.val / 8 ∧ win0_3.index t 1 = 0)
    ∧ (win0_4.index t 0 = t.val / 8 ∧ win0_4.index t 1 = 0)
    ∧ (grid0.coords t 1).val = t.val % 8 :=
  (by decide +kernel : ∀ t : Fin grid0.N, _)

variable (m : (ℓ : Loc nD τ sig) → Buf (Elt Ideal) ℓ)

/-- The adjacency, the edge features and the bf16 node features as the region finds them. -/
abbrev adjE (c : Dev nD) : NN.Idx → EReal := entry m c main_arg2
abbrev edgeE (c : Dev nD) : NN.Idx → EReal := entry m c main_arg1
abbrev nodeE (c : Dev nD) : NF.Idx → EReal := entry m c main_v0

/-- The adjacency block of point t at (p, k): A at (512 (t / 8) + p, 2048 (t % 8) + k). -/
theorem adjIn_apply (c : Dev nD) (t : Fin cfg0.N) (p : Fin 512) (k : Fin 2048) :
    adjIn m c t (ix2 p k) = at2 (adjE m c) (t.val / 8 * 512 + p.val) (t.val % 8 * 2048 + k.val) := by
  have hN : t.val < 256 := lt_of_lt_of_eq t.isLt (show cfg0.N = 256 from N_0)
  have hw := (where_blocks t).2.1
  have h0 : t.val / 8 * 512 + p.val < 16384 := by have := p.isLt; omega
  have h1 : t.val % 8 * 2048 + k.val < 16384 := by have := k.isLt; omega
  rw [show at2 (adjE m c) (t.val / 8 * 512 + p.val) (t.val % 8 * 2048 + k.val) = adjE m c (ix2 ⟨_, h0⟩ ⟨_, h1⟩) from at2_ix2 (adjE m c) ⟨_, h0⟩ ⟨_, h1⟩]
  show blockAt m c 1 t _ = _
  unfold blockAt
  rw [View.read_apply]
  show entry m c main_arg2 _ = entry m c main_arg2 _
  congr 1
  funext a
  apply Fin.ext
  match a with
  | ⟨0, _⟩ => show win0_1.index t 0 * 512 + 1 * p.val = t.val / 8 * 512 + p.val; rw [hw.1]; omega
  | ⟨1, _⟩ => show win0_1.index t 1 * 2048 + 1 * k.val = t.val % 8 * 2048 + k.val; rw [hw.2]; omega

/-- The edge-feature block of point t at (k, p): E at (2048 (t % 8) + k, 512 (t / 8) + p). -/
theorem edgesIn_apply (c : Dev nD) (t : Fin cfg0.N) (k : Fin 2048) (p : Fin 512) :
    edgesIn m c t (ix2 k p) = at2 (edgeE m c) (t.val % 8 * 2048 + k.val) (t.val / 8 * 512 + p.val) := by
  have hN : t.val < 256 := lt_of_lt_of_eq t.isLt (show cfg0.N = 256 from N_0)
  have hw := (where_blocks t).2.2.1
  have h0 : t.val % 8 * 2048 + k.val < 16384 := by have := k.isLt; omega
  have h1 : t.val / 8 * 512 + p.val < 16384 := by have := p.isLt; omega
  rw [show at2 (edgeE m c) (t.val % 8 * 2048 + k.val) (t.val / 8 * 512 + p.val) = edgeE m c (ix2 ⟨_, h0⟩ ⟨_, h1⟩) from at2_ix2 (edgeE m c) ⟨_, h0⟩ ⟨_, h1⟩]
  show blockAt m c 2 t _ = _
  unfold blockAt
  rw [View.read_apply]
  show entry m c main_arg1 _ = entry m c main_arg1 _
  congr 1
  funext a
  apply Fin.ext
  match a with
  | ⟨0, _⟩ => show win0_2.index t 0 * 2048 + 1 * k.val = t.val % 8 * 2048 + k.val; rw [hw.1]; omega
  | ⟨1, _⟩ => show win0_2.index t 1 * 512 + 1 * p.val = t.val / 8 * 512 + p.val; rw [hw.2]; omega

/-- Window 0's one block is the whole bf16 node-feature array. -/
theorem nodesIn_apply (c : Dev nD) (t : Fin cfg0.N) (r : Fin 16384) (f : Fin 128) :
    nodesIn m c t (ix2 r f) = nodeE m c (ix2 r f) := by
  have hw := (where_blocks t).1
  show blockAt m c 0 t _ = _
  unfold blockAt
  rw [View.read_apply]
  show entry m c main_v0 _ = entry m c main_v0 _
  congr 1
  funext a
  apply Fin.ext
  match a with
  | ⟨0, _⟩ => show win0_0.index t 0 * 16384 + 1 * r.val = r.val; rw [hw.1]; omega
  | ⟨1, _⟩ => show win0_0.index t 1 * 128 + 1 * f.val = f.val; rw [hw.2]; omega

/-- The node rows loaded at point t, at (k, f): X at (2048 (t % 8) + k, f). -/
theorem nodeRows_at (c : Dev nD) (t : Fin cfg0.N) (k : Fin 2048) (f : Fin 128) :
    nodeRows (F := Ideal) (grid0.coords t) (nodesIn m c t) (ix2 k f) = at2 (nodeE m c) (t.val % 8 * 2048 + k.val) f.val := by
  have hc := (where_blocks t).2.2.2.2.2
  have h0 : t.val % 8 * 2048 + k.val < 16384 := by have := k.isLt; omega
  have h0' : (grid0.coords t 1).val * 2048 + k.val < 16384 := by rw [hc]; exact h0
  rw [nodeRows_apply (grid0.coords t) (nodesIn m c t) k f h0', nodesIn_apply,
    show at2 (nodeE m c) (t.val % 8 * 2048 + k.val) f.val = nodeE m c (ix2 ⟨_, h0⟩ f) from at2_ix2 (nodeE m c) ⟨_, h0⟩ f]
  congr 1
  funext a
  apply Fin.ext
  match a with
  | ⟨0, _⟩ => show (grid0.coords t 1).val * 2048 + k.val = t.val % 8 * 2048 + k.val; rw [hc]
  | ⟨1, _⟩ => rfl

/-! ## One step, entry by entry -/

theorem step_acc (c : Dev nD) (t : Fin cfg0.N) (a : FVec Ideal S512x128 .f32) (s : FVec Ideal S512x1 .f32) (p : Fin 512) (f : Fin 128) :
    (stepAt m c t (a, s)).1 (ix2 p f) = a (ix2 p f) + dotTerm (adjE m c) (nodeE m c) (t.val / 8 * 512 + p.val) f.val (t.val % 8) := by
  show accStep (F := Ideal) (grid0.coords t) (nodesIn m c t) (adjIn m c t) a (ix2 p f) = _
  rw [accStep_apply]
  unfold dotTerm
  refine congrArg (a (ix2 p f) + ·) (Finset.sum_congr rfl fun k _ => ?_)
  rw [adjIn_apply, nodeRows_at]

theorem step_sum (c : Dev nD) (t : Fin cfg0.N) (a : FVec Ideal S512x128 .f32) (s : FVec Ideal S512x1 .f32) (p : Fin 512) :
    (stepAt m c t (a, s)).2 (ix2 p (0 : Fin 1)) = s (ix2 p (0 : Fin 1)) + diagTerm (adjE m c) (edgeE m c) (t.val / 8 * 512 + p.val) (t.val % 8) := by
  show sumStep (F := Ideal) (adjIn m c t) (edgesIn m c t) s (ix2 p (0 : Fin 1)) = _
  rw [sumStep_apply]
  unfold diagTerm
  refine congrArg (s (ix2 p (0 : Fin 1)) + ·) (Finset.sum_congr rfl fun k _ => ?_)
  rw [adjIn_apply, edgesIn_apply]

/-! ## The running sums -/

/-- After point n the first accumulator holds, at (p, f), the shares of the blocks 0 .. n % 8 of row 512 (n / 8) + p. -/
theorem acc_partial (c : Dev nD) (n : ℕ) (hn : n < cfg0.N) (p : Fin 512) (f : Fin 128) :
    (heldAt m c n hn).1 (ix2 p f) = ∑ j ∈ Finset.range (n % 8 + 1), dotTerm (adjE m c) (nodeE m c) (n / 8 * 512 + p.val) f.val j := by
  induction n with
  | zero =>
    rw [show heldAt m c 0 hn = stepAt m c ⟨0, hn⟩ zeroAcc from heldAt_reset m c ⟨0, hn⟩ rfl]
    unfold zeroAcc
    rw [step_acc, zeroAcc_apply, zero_add]
    show _ = ∑ j ∈ Finset.range 1, _
    rw [Finset.sum_range_one]
    rfl
  | succ n ih =>
    by_cases h : (n + 1) % 8 = 0
    · rw [show heldAt m c (n + 1) hn = stepAt m c ⟨n + 1, hn⟩ zeroAcc from heldAt_reset m c ⟨n + 1, hn⟩ h]
      unfold zeroAcc
      rw [step_acc, zeroAcc_apply, zero_add]
      show dotTerm _ _ _ _ ((n + 1) % 8) = _
      rw [h, Finset.sum_range_one]
    · rw [show heldAt m c (n + 1) hn = stepAt m c ⟨n + 1, hn⟩ (heldAt m c n (Nat.lt_of_succ_lt hn)) from heldAt_add m c ⟨n + 1, hn⟩ h]
      rw [show heldAt m c n (Nat.lt_of_succ_lt hn) = ((heldAt m c n (Nat.lt_of_succ_lt hn)).1, (heldAt m c n (Nat.lt_of_succ_lt hn)).2) from rfl,
        step_acc, ih (Nat.lt_of_succ_lt hn)]
      show _ + dotTerm _ _ ((n + 1) / 8 * 512 + p.val) f.val ((n + 1) % 8) = _
      rw [show (n + 1) / 8 = n / 8 from by omega, show (n + 1) % 8 = n % 8 + 1 from by omega, Finset.sum_range_succ _ (n % 8 + 1)]

/-- After point n the second accumulator holds, at (p, 0), the shares of the blocks 0 .. n % 8 of the diagonal entry. -/
theorem sum_partial (c : Dev nD) (n : ℕ) (hn : n < cfg0.N) (p : Fin 512) :
    (heldAt m c n hn).2 (ix2 p (0 : Fin 1)) = ∑ j ∈ Finset.range (n % 8 + 1), diagTerm (adjE m c) (edgeE m c) (n / 8 * 512 + p.val) j := by
  induction n with
  | zero =>
    rw [show heldAt m c 0 hn = stepAt m c ⟨0, hn⟩ zeroAcc from heldAt_reset m c ⟨0, hn⟩ rfl]
    unfold zeroAcc
    rw [step_sum, zeroSum_apply, zero_add]
    show _ = ∑ j ∈ Finset.range 1, _
    rw [Finset.sum_range_one]
    rfl
  | succ n ih =>
    by_cases h : (n + 1) % 8 = 0
    · rw [show heldAt m c (n + 1) hn = stepAt m c ⟨n + 1, hn⟩ zeroAcc from heldAt_reset m c ⟨n + 1, hn⟩ h]
      unfold zeroAcc
      rw [step_sum, zeroSum_apply, zero_add]
      show diagTerm _ _ _ ((n + 1) % 8) = _
      rw [h, Finset.sum_range_one]
    · rw [show heldAt m c (n + 1) hn = stepAt m c ⟨n + 1, hn⟩ (heldAt m c n (Nat.lt_of_succ_lt hn)) from heldAt_add m c ⟨n + 1, hn⟩ h]
      rw [show heldAt m c n (Nat.lt_of_succ_lt hn) = ((heldAt m c n (Nat.lt_of_succ_lt hn)).1, (heldAt m c n (Nat.lt_of_succ_lt hn)).2) from rfl,
        step_sum, ih (Nat.lt_of_succ_lt hn)]
      show _ + diagTerm _ _ ((n + 1) / 8 * 512 + p.val) ((n + 1) % 8) = _
      rw [show (n + 1) / 8 = n / 8 from by omega, show (n + 1) % 8 = n % 8 + 1 from by omega, Finset.sum_range_succ _ (n % 8 + 1)]

/-- Where the accumulators are written back (t % 8 = 7) they hold the whole row sums. -/
theorem acc_flushed (c : Dev nD) (t : Fin cfg0.N) (h7 : t.val % 8 = 7) (p : Fin 512) (f : Fin 128) :
    (heldAt m c t.val t.isLt).1 (ix2 p f) = rowDot (adjE m c) (nodeE m c) (t.val / 8 * 512 + p.val) f.val := by
  rw [acc_partial, h7, rowDot_range]
theorem sum_flushed (c : Dev nD) (t : Fin cfg0.N) (h7 : t.val % 8 = 7) (p : Fin 512) :
    (heldAt m c t.val t.isLt).2 (ix2 p (0 : Fin 1)) = rowDiag (adjE m c) (edgeE m c) (t.val / 8 * 512 + p.val) := by
  rw [sum_partial, h7, rowDiag_range]

end Cert.KernelIdeal.Mp

end
-- ==== Proof.KI.Final.lean ====
/-
  The result arrays after the run, and the program's result.

  Where an accumulator is written back (t % 8 = 7, that is j = 7) it holds the whole row sums of rows 512 i .. 512 i + 511,
  and the blocks i = 0 .. 31 tile the result arrays; so after the region the first result array is the neighbour node
  features A X (with X the bf16 node features as the region finds them) and the second the neighbour edge features
  diag(A E). The concatenation then writes the program's result: the node features, A X and diag(A E) side by side.
-/
import proofs.«167608_j52012053954612_1_alg».proof.Proof.KI.Blocks
import Idealize.ShloMosaic.Lib.StableHlo.Run

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.MpSpec

variable (m : (ℓ : Loc nD τ sig) → Buf (Elt Ideal) ℓ) (ρ : Dev nD → PrngReg)

/-- What the two result arrays end holding. -/
abbrev accArr (c : Dev nD) : Buf (Elt Ideal) ((c : Thread nD τ).loc main_v1_0) := nbrNodes (adjE m c) (nodeE m c)
abbrev sumArr (c : Dev nD) : Buf (Elt Ideal) ((c : Thread nD τ).loc main_v1_1) := nbrEdges (adjE m c) (edgeE m c)

/-- A write-back of the first accumulator, against any array G that agrees with what the accumulator holds, row by row:
    what is written is the block of G. (G is kept abstract: the row sums are never opened here.) -/
theorem flushed_rows (c : Dev nD) (t : Fin cfg0.N) (G : Buf (Elt Ideal) ((c : Thread nD τ).loc main_v1_0))
    (hG : ∀ (p : Fin 512) (f : Fin 128) (h : t.val / 8 * 512 + p.val < 16384),
      (heldAt m c t.val t.isLt).1 (ix2 p f) = G (ix2 ⟨t.val / 8 * 512 + p.val, h⟩ f)) :
    (pdata m 0 c).flushed 3 t = ((cfg0.win 3).blk t).view.read (Elt Ideal) G := by
  have hN : t.val < 256 := lt_of_lt_of_eq t.isLt (show cfg0.N = 256 from N_0)
  have hw := (where_blocks t).2.2.2.1
  show (cfg0.win 3).cut (grid0.coords t) ((pdata m 0 c).after 3 t) = _
  rw [after_acc]
  funext y
  obtain ⟨p, f, rfl⟩ : ∃ (p : Fin 512) (f : Fin 128), y = ix2 p f := ⟨y 0, y 1, eq_ix2 y⟩
  rw [View.read_apply]
  show _ = G _
  refine (hG p f (by have := p.isLt; omega)).trans ?_
  congr 1
  funext a
  apply Fin.ext
  match a with
  | ⟨0, _⟩ => show t.val / 8 * 512 + p.val = win0_3.index t 0 * 512 + 1 * p.val; rw [hw.1]; omega
  | ⟨1, _⟩ => show f.val = win0_3.index t 1 * 128 + 1 * f.val; rw [hw.2]; omega

/-- The same for the second accumulator. -/
theorem flushed_diag (c : Dev nD) (t : Fin cfg0.N) (G : Buf (Elt Ideal) ((c : Thread nD τ).loc main_v1_1))
    (hG : ∀ (p : Fin 512) (h : t.val / 8 * 512 + p.val < 16384),
      (heldAt m c t.val t.isLt).2 (ix2 p (0 : Fin 1)) = G (ix2 ⟨t.val / 8 * 512 + p.val, h⟩ (0 : Fin 1))) :
    (pdata m 0 c).flushed 4 t = ((cfg0.win 4).blk t).view.read (Elt Ideal) G := by
  have hN : t.val < 256 := lt_of_lt_of_eq t.isLt (show cfg0.N = 256 from N_0)
  have hw := (where_blocks t).2.2.2.2.1
  show (cfg0.win 4).cut (grid0.coords t) ((pdata m 0 c).after 4 t) = _
  rw [after_sum]
  funext y
  obtain ⟨p, z, rfl⟩ : ∃ (p : Fin 512) (z : Fin 1), y = ix2 p z := ⟨y 0, y 1, eq_ix2 y⟩
  obtain rfl : z = 0 := Subsingleton.elim _ _
  rw [View.read_apply]
  show _ = G _
  refine (hG p (by have := p.isLt; omega)).trans ?_
  congr 1
  funext a
  apply Fin.ext
  match a with
  | ⟨0, _⟩ => show t.val / 8 * 512 + p.val = win0_4.index t 0 * 512 + 1 * p.val; rw [hw.1]; omega
  | ⟨1, _⟩ => show 0 = win0_4.index t 1 * 1 + 1 * 0; rw [hw.2]

/-- What a write-back of the first accumulator writes is its block of A X. -/
theorem flushed_acc (c : Dev nD) (t : Fin cfg0.N) (hf : (cfg0.win 3).flush t = true) :
    (pdata m 0 c).flushed 3 t = ((cfg0.win 3).blk t).view.read (Elt Ideal) (accArr m c) :=
  flushed_rows m c t (accArr m c) fun p f h =>
    (acc_flushed m c t ((flush0_3 t).mp hf) p f).trans (congrArg₂ (rowDot (adjE m c) (nodeE m c)) rfl rfl)

/-- What a write-back of the second accumulator writes is its block of diag(A E). -/
theorem flushed_sum (c : Dev nD) (t : Fin cfg0.N) (hf : (cfg0.win 4).flush t = true) :
    (pdata m 0 c).flushed 4 t = ((cfg0.win 4).blk t).view.read (Elt Ideal) (sumArr m c) :=
  flushed_diag m c t (sumArr m c) fun p h =>
    (sum_flushed m c t ((flush0_4 t).mp hf) p).trans (congrArg (rowDiag (adjE m c) (edgeE m c)) rfl)

/-- Every row is in the block of some written-back point: row r in block r / 512, written back after point 8 (r / 512) + 7. -/
theorem cover_acc (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 16384 := (i 0).isLt
  have h1 : (i 1 : ℕ) < 128 := (i 1).isLt
  have hN : cfg0.N = 256 := N_0
  let t : Fin cfg0.N := ⟨(i 0 : ℕ) / 512 * 8 + 7, by rw [hN]; omega⟩
  have hw := (where_blocks t).2.2.2.1
  have ht : t.val = (i 0 : ℕ) / 512 * 8 + 7 := rfl
  refine ⟨t, (flush0_3 t).mpr (by rw [ht]; omega), ?_⟩
  show i ∈ ((View.whole main_v1_0).slice (win0_3.rect t)).set
  rw [View.set_slice_whole, Rect.mem_set_unit]
  intro a
  match a with
  | ⟨0, _⟩ => show win0_3.index t 0 * 512 ≤ (i 0 : ℕ) ∧ (i 0 : ℕ) < win0_3.index t 0 * 512 + 512
              rw [hw.1, ht]; omega
  | ⟨1, _⟩ => show win0_3.index t 1 * 128 ≤ (i 1 : ℕ) ∧ (i 1 : ℕ) < win0_3.index t 1 * 128 + 128
              rw [hw.2]; omega

theorem cover_sum (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : ℕ) < 16384 := (i 0).isLt
  have h1 : (i 1 : ℕ) < 1 := (i 1).isLt
  have hN : cfg0.N = 256 := N_0
  let t : Fin cfg0.N := ⟨(i 0 : ℕ) / 512 * 8 + 7, by rw [hN]; omega⟩
  have hw := (where_blocks t).2.2.2.2.1
  have ht : t.val = (i 0 : ℕ) / 512 * 8 + 7 := rfl
  refine ⟨t, (flush0_4 t).mpr (by rw [ht]; omega), ?_⟩
  show i ∈ ((View.whole main_v1_1).slice (win0_4.rect t)).set
  rw [View.set_slice_whole, Rect.mem_set_unit]
  intro a
  match a with
  | ⟨0, _⟩ => show win0_4.index t 0 * 512 ≤ (i 0 : ℕ) ∧ (i 0 : ℕ) < win0_4.index t 0 * 512 + 512
              rw [hw.1, ht]; omega
  | ⟨1, _⟩ => show win0_4.index t 1 * 1 ≤ (i 1 : ℕ) ∧ (i 1 : ℕ) < win0_4.index t 1 * 1 + 1
              rw [hw.2]; omega

/-- The result arrays after the region. -/
theorem final_acc (c : Dev nD) : (pdata m 0 c).arrAt 3 cfg0.N = accArr m c :=
  (pdata m 0 c).arrAt_eq_of_cover 3 (accArr m c) (flushed_acc m c) (cover_acc c)
theorem final_sum (c : Dev nD) : (pdata m 0 c).arrAt 4 cfg0.N = sumArr m c :=
  (pdata m 0 c).arrAt_eq_of_cover 4 (sumArr m c) (flushed_sum m c) (cover_sum c)

/-- What the concatenation leaves in the program's result buffer. -/
theorem tail_value (c : Dev nD) :
    Pipeline.afterTail₀ cfgs (pdata m) 0 (entryVal m) [hostOps1] c main_v2
      = concatenate S16384x257 1 [⟨S16384x128, m ((c : Thread nD τ).loc main_arg0)⟩, ⟨S16384x128, accArr m c⟩, ⟨S16384x1, sumArr m c⟩]
          concatenates_S16384x128_S16384x128_S16384x1_S16384x257_d1 := by
  unfold Pipeline.afterTail₀
  show StableHlo.after hostOps1 _ (Proc.devRef .tc main_v2) = _
  after_results
  have e0 : Pipeline.withArrays (cfgs 0).spec c (entryVal m c) (fun w => (pdata m 0 c).arrAt w (cfgs 0).N) (Proc.devRef .tc main_arg0)
      = m ((c : Thread nD τ).loc main_arg0) :=
    (Pipeline.withArrays_of_ne _ c (entryVal m c) _ main_arg0 (by exact (by decide : ∀ w, Pipeline.arrRef spec0 w ≠ main_arg0))).trans (entry_nodes m c)
  have e1 : Pipeline.withArrays (cfgs 0).spec c (entryVal m c) (fun w => (pdata m 0 c).arrAt w (cfgs 0).N) (Proc.devRef .tc main_v1_0)
      = accArr m c :=
    (Pipeline.withArrays_arr spec0 launch0.win.arr_inj c _ _ 3).trans (final_acc m c)
  have e2 : Pipeline.withArrays (cfgs 0).spec c (entryVal m c) (fun w => (pdata m 0 c).arrAt w (cfgs 0).N) (Proc.devRef .tc main_v1_1)
      = sumArr m c :=
    (Pipeline.withArrays_arr spec0 launch0.win.arr_inj c _ _ 4).trans (final_sum m c)
  show concatenate S16384x257 1
      [⟨S16384x128, Pipeline.withArrays (cfgs 0).spec c (entryVal m c) (fun w => (pdata m 0 c).arrAt w (cfgs 0).N) (Proc.devRef .tc main_arg0)⟩,
       ⟨S16384x128, Pipeline.withArrays (cfgs 0).spec c (entryVal m c) (fun w => (pdata m 0 c).arrAt w (cfgs 0).N) (Proc.devRef .tc main_v1_0)⟩,
       ⟨S16384x1, Pipeline.withArrays (cfgs 0).spec c (entryVal m c) (fun w => (pdata m 0 c).arrAt w (cfgs 0).N) (Proc.devRef .tc main_v1_1)⟩]
      concatenates_S16384x128_S16384x128_S16384x1_S16384x257_d1 = _
  rw [e0, e1, e2]

end Cert.KernelIdeal.Mp

end
-- ==== Proof.KI.Result.lean ====
/-
  The idealized kernel program's run, with its result named.

  Every execution from a memory m ends with the result buffer holding the node features X, the neighbour node features
  A X and the neighbour edge features diag(A E) side by side (A, X, E the argument arrays as launched), and the
  arguments unchanged. The region finds A and E as launched and the node features converted to bf16, which on the
  extended reals is X itself.
-/
import proofs.«167608_j52012053954612_1_alg».proof.Proof.KI.Final

set_option maxRecDepth 16384

noncomputable section

namespace Cert.KernelIdeal.Mp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.MpSpec

/-- The program's result as a function of the three argument arrays. -/
def resultOf (x0 : FVec Ideal S16384x128 .f32) (x1 x2 : FVec Ideal S16384x16384 .f32) : FVec Ideal S16384x257 .f32 :=
  concatenate S16384x257 1 [⟨S16384x128, x0⟩, ⟨S16384x128, nbrNodes x2 x0⟩, ⟨S16384x1, nbrEdges x2 x1⟩]
    concatenates_S16384x128_S16384x128_S16384x1_S16384x257_d1

variable (m : (ℓ : Loc nD τ sig) → Buf (Elt Ideal) ℓ) (ρ : Dev nD → PrngReg)

/-- The region finds the node features converted to bf16: on the extended reals, the node features. -/
theorem nodeE_eq (c : Dev nD) : nodeE m c = (m ((c : Thread nD τ).loc main_arg0) : NF.Idx → EReal) := by
  show (StableHlo.after hostOps0 (fun b => m (c, b)) (Proc.devRef .tc main_v0) : NF.Idx → EReal) = _
  after_results
  rfl

theorem adjE_eq (c : Dev nD) : adjE m c = (m ((c : Thread nD τ).loc main_arg2) : NN.Idx → EReal) := entry_adj m c
theorem edgeE_eq (c : Dev nD) : edgeE m c = (m ((c : Thread nD τ).loc main_arg1) : NN.Idx → EReal) := entry_edges m c

/-- The run, read: the result at `resultOf` of the launch contents of the arguments, the arguments unchanged. -/
theorem run_value : θ_run defs (onTc (τ := τ) (main (F := Ideal))) ⟨m, fun _ => 0, ρ⟩ (fun r => ∀ c : Dev nD,
      r.2.mem ((c.tc : Thread nD τ).loc main_v2)
        = resultOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v2 (Pipeline.mem_restRefs_of main_v2 (by decide) (by decide))).trans (tail_value m c)).trans (by
        unfold resultOf
        rw [show accArr m c = nbrNodes (adjE m c) (nodeE m c) from rfl, show sumArr m c = nbrEdges (adjE m c) (edgeE m c) from rfl,
          nodeE_eq, adjE_eq, edgeE_eq]),
     ((h c).2 main_arg0 (Pipeline.mem_restRefs_of main_arg0 (by decide) (by decide))).trans (exit_nodes m (pdata m) c),
     ((h c).1 2).trans (((pdata m 0 c).arrAt_in 2 rfl _).trans ((pdata_A m c 2).trans (entry_edges m c))),
     ((h c).1 1).trans (((pdata m 0 c).arrAt_in 1 rfl _).trans ((pdata_A m c 1).trans (entry_adj m c)))⟩)
    (run_main m ρ)

end Cert.KernelIdeal.Mp

end
-- ==== Proof.RefValue.lean ====
/-
  The reference's two computed stages are the specification.

  The reference computes the neighbour node features as one whole `dot_general` of the adjacency with the node features,
  and the neighbour edge features as the row sums (a host reduction from zero over axis 1) of the entrywise product of the
  adjacency with the transposed edge features, broadcast to an N x 1 column. Read at an index, at `Ideal`, these are
  `sum over k of A[r, k] * X[k, f]` and `0 + sum over k of A[r, k] * E[k, r]`.
-/
import proofs.«167608_j52012053954612_1_alg».proof.Proof.Gen.ReferenceIdeal.Read
import proofs.«167608_j52012053954612_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.MpSpec

/-- The whole `dot_general` is the neighbour node features. -/
theorem nodes_eq (x0 : FVec Ideal S16384x128 .f32) (x2 : FVec Ideal S16384x16384 .f32) :
    val_main_v0 (F := Ideal) x0 x2 = nbrNodes x2 x0 := by
  funext i
  rw [val_main_v0_apply]
  unfold nbrNodes rowDot
  refine Finset.sum_congr rfl fun k _ => ?_
  have hl : lidx_main_v0 i k = ix2 (i 0) k :=
    funext fun a => Fin.ext (by match a with | ⟨0, _⟩ => rfl | ⟨1, _⟩ => rfl)
  have hr : ridx_main_v0 i k = ix2 k (i 1) :=
    funext fun a => Fin.ext (by match a with | ⟨0, _⟩ => rfl | ⟨1, _⟩ => rfl)
  rw [hl, hr]
  exact (congrArg₂ (· * ·) (at2_ix2 x2 (i 0) k) (at2_ix2 x0 k (i 1))).symm

/-- The broadcast row sums are the neighbour edge features. -/
theorem edges_eq (x1 x2 : FVec Ideal S16384x16384 .f32) :
    val_main_v4 (F := Ideal) x1 x2 = nbrEdges x2 x1 := by
  funext i
  have h0 : (FloatOps.ofBits .f32 0x00000000#32 : Ideal .f32) = 0 := Ideal.ofBits_zero_f32
  rw [val_main_v4_apply, val_main_v3_apply, val_main_cst_apply, h0, zero_add]
  unfold nbrEdges rowDiag
  refine Finset.sum_congr rfl fun k _ => ?_
  rw [val_main_v2_apply, val_main_v1_apply, Ideal.mulf_def]
  have ha : idx_main_v3 (idx_main_v4 i) k = ix2 (i 0) k :=
    funext fun a => Fin.ext (by match a with | ⟨0, _⟩ => rfl | ⟨1, _⟩ => rfl)
  have he : idx_main_v1 (idx_main_v3 (idx_main_v4 i) k) = ix2 k (i 0) :=
    funext fun a => Fin.ext (by match a with | ⟨0, _⟩ => rfl | ⟨1, _⟩ => rfl)
  rw [he, ha]
  exact (congrArg₂ (· * ·) (at2_ix2 x2 (i 0) k) (at2_ix2 x1 k (i 0))).symm

end Cert.ReferenceIdeal.RefValue

end
-- ==== Proof.lean ====
/-
  The proof of `Cert.Claim`: the kernel program (a fused message-passing step) against its reference.

  The kernel walks a 32 x 8 grid. At point (i, j) it adds to a 512 x 128 accumulator the product of the adjacency
  block (i, j) with rows 2048 j .. of the bf16 node features, and to a 512 x 1 accumulator the row sums of that block
  times the transposed edge-feature block (j, i); it zeroes both where j = 0, and the pipeline writes them back after
  j = 7. The host then concatenates the node features with the two results. The reference computes A X by one whole
  product, diag(A E) as the row sums of A * E^T, and concatenates the same way.

  * The three frames: the word-level and the idealized kernel programs by the run of their region between the two host
    lines (the body's triple at a point, the accumulators' contents point by point, the launch); the reference by its
    straight-line run.
  * `preserves`: the idealization rewrote nothing.
  * `algebraic`: on the extended reals the accumulators after point (i, j) hold the shares of the column blocks 0 .. j of
    the row sums, so after j = 7 the whole sums: a sum over 16384 indices regrouped as 8 blocks of 2048, which needs only
    that addition is commutative and associative. The change of float format is the identity, so the bf16 node features
    are the node features; the two concatenations are the same operation of the same three arrays.
-/
import proofs.«167608_j52012053954612_1_alg».proof.Defs
import proofs.«167608_j52012053954612_1_alg».proof.Proof.Gen.Kernel
import proofs.«167608_j52012053954612_1_alg».proof.Proof.Gen.KernelIdeal
import proofs.«167608_j52012053954612_1_alg».proof.Proof.Gen.ReferenceIdeal
import proofs.«167608_j52012053954612_1_alg».proof.Proof.Gen.Pre_finite_inputs
import proofs.«167608_j52012053954612_1_alg».proof.Proof.K.Carried
import proofs.«167608_j52012053954612_1_alg».proof.Proof.KI.Result
import proofs.«167608_j52012053954612_1_alg».proof.Proof.RefValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Mp.args_kept (F := Bits) m ρ

theorem frame_kernelIdeal [Cert.KernelIdeal.Facts] [Cert.Pre_finite_inputs.Facts] : Cert.frame_KernelIdeal :=
  fun m ρ _ => Cert.KernelIdeal.Mp.args_kept (F := Ideal) m ρ

theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the node features, A X and diag(A E) side by side. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Mp.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Mp.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.ReferenceIdeal.RefValue.nodes_eq, Cert.ReferenceIdeal.RefValue.edges_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
